-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_sqrt_d" .f32 0x3DB504F3#32 ((17592186044416 / 199032870625801 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x128 : Shape := ⟨4, ![4, 16, 2048, 128]⟩
abbrev S_ : Shape := ⟨0, ![]⟩

class Facts : Prop where
  bcast_S_S4x16x2048x128 : S_.BroadcastsInDim S4x16x2048x128 (![] : Fin 0 → Fin S4x16x2048x128.rank)
  reducesTo_S4x16x2048x128_S_d0_1_2_3 : S4x16x2048x128.ReducesTo [0, 1, 2, 3] S_
  h_S_ : 0 < S_.numel

variable [Facts]

def fn {F : FTy → Type} [FloatOps F] (main_arg0 : FVec F S4x16x2048x128 .f32) (main_arg1 : FVec F S4x16x2048x128 .f32) (main_arg2 : FVec F S4x16x2048x128 .f32) : IVec S_ 1 :=
  let main_v0 : FVec F S4x16x2048x128 .f32 := Host.absf main_arg0
  let main_cst : FVec F S_ .f32 := constant S_ .f32 0x7F800000#32
  let main_v1 : FVec F S4x16x2048x128 .f32 := broadcastInDim S4x16x2048x128 ![] bcast_S_S4x16x2048x128 main_cst
  let main_v2 : IVec S4x16x2048x128 1 := cmpf .olt main_v0 main_v1
  let main_c : IVec S_ 1 := constantI S_ 1 1#1
  let main_v3 : IVec S_ 1 := (fun x v => Host.reduce IntOp.andi x v reducesTo_S4x16x2048x128_S_d0_1_2_3 h_S_) main_v2 main_c
  let main_v4 : FVec F S4x16x2048x128 .f32 := Host.absf main_arg1
  let main_cst_0 : FVec F S_ .f32 := constant S_ .f32 0x7F800000#32
  let main_v5 : FVec F S4x16x2048x128 .f32 := broadcastInDim S4x16x2048x128 ![] bcast_S_S4x16x2048x128 main_cst_0
  let main_v6 : IVec S4x16x2048x128 1 := cmpf .olt main_v4 main_v5
  let main_c_1 : IVec S_ 1 := constantI S_ 1 1#1
  let main_v7 : IVec S_ 1 := (fun x v => Host.reduce IntOp.andi x v reducesTo_S4x16x2048x128_S_d0_1_2_3 h_S_) main_v6 main_c_1
  let main_v8 : IVec S_ 1 := andi main_v3 main_v7
  let main_v9 : FVec F S4x16x2048x128 .f32 := Host.absf main_arg2
  let main_cst_2 : FVec F S_ .f32 := constant S_ .f32 0x7F800000#32
  let main_v10 : FVec F S4x16x2048x128 .f32 := broadcastInDim S4x16x2048x128 ![] bcast_S_S4x16x2048x128 main_cst_2
  let main_v11 : IVec S4x16x2048x128 1 := cmpf .olt main_v9 main_v10
  let main_c_3 : IVec S_ 1 := constantI S_ 1 1#1
  let main_v12 : IVec S_ 1 := (fun x v => Host.reduce IntOp.andi x v reducesTo_S4x16x2048x128_S_d0_1_2_3 h_S_) main_v11 main_c_3
  let main_v13 : IVec S_ 1 := andi main_v8 main_v12
  main_v13
-- ==== Kernel.lean ====
abbrev S4x16x2048x128 : Shape := ⟨4, ![4, 16, 2048, 128]⟩
abbrev S64x2048x128 : Shape := ⟨3, ![64, 2048, 128]⟩
abbrev S1x1024x128 : Shape := ⟨3, ![1, 1024, 128]⟩
abbrev S1x2048x128 : Shape := ⟨3, ![1, 2048, 128]⟩
abbrev S2048x128 : Shape := ⟨2, ![2048, 128]⟩
abbrev S1024x128 : Shape := ⟨2, ![1024, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S4x16x2048x128, .f32⟩
  | .hbm, ⟨1, _⟩ => ⟨S4x16x2048x128, .f32⟩
  | .hbm, ⟨2, _⟩ => ⟨S4x16x2048x128, .f32⟩
  | .hbm, ⟨3, _⟩ => ⟨S64x2048x128, .f32⟩
  | .hbm, ⟨4, _⟩ => ⟨S64x2048x128, .f32⟩
  | .hbm, ⟨5, _⟩ => ⟨S64x2048x128, .f32⟩
  | .hbm, ⟨6, _⟩ => ⟨S64x2048x128, .f32⟩
  | .hbm, ⟨7, _⟩ => ⟨S4x16x2048x128, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1024x128, .f32⟩
  | .local _ .vmem, ⟨7, _⟩ => ⟨S1x1024x128, .f32⟩
  | .local _ .vmem, ⟨8, _⟩ => ⟨S2048x128, .bf16⟩
  | .local _ .vmem, ⟨9, _⟩ => ⟨S2048x128, .bf16⟩
  | _, _ => ⟨S4x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x128_S64x2048x128 : S4x16x2048x128.ShapeCasts S64x2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x128 : S1024x1.Broadcasts S1024x128
  shapeCasts_S1024x128_S1x1024x128 : S1024x128.ShapeCasts S1x1024x128
  shapeCasts_S64x2048x128_S4x16x2048x128 : S64x2048x128.ShapeCasts S4x16x2048x128
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S64x2048x128.size a
  hwx0_0 : ∀ i : grid0.Coords, EltTy.bits .f32 = 32 ∨ (Rect.block (s := S64x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S64x2048x128.size a
  hwx0_1 : ∀ i : grid0.Coords, EltTy.bits .f32 = 32 ∨ (Rect.block (s := S64x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S64x2048x128.size a
  hwx0_2 : ∀ i : grid0.Coords, EltTy.bits .f32 = 32 ∨ (Rect.block (s := S64x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S64x2048x128.size a
  hwx0_3 : ∀ i : grid0.Coords, EltTy.bits .f32 = 32 ∨ (Rect.block (s := S64x2048x128) S1x1024x128.size (cc0_transform_3 i) (hinb0_3 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x128 : Shape := ⟨4, ![4, 16, 2048, 128]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x16x2048x128, .f32⟩
  | .hbm, ⟨1, _⟩ => ⟨S4x16x2048x128, .f32⟩
  | .hbm, ⟨2, _⟩ => ⟨S4x16x2048x128, .f32⟩
  | .hbm, ⟨3, _⟩ => ⟨S_, .f32⟩
  | .hbm, ⟨4, _⟩ => ⟨S4x16x2048x128, .f32⟩
  | .hbm, ⟨5, _⟩ => ⟨S4x16x2048x128, .f32⟩
  | .hbm, ⟨6, _⟩ => ⟨S_, .f32⟩
  | .hbm, ⟨7, _⟩ => ⟨S4x16x2048x128, .f32⟩
  | .hbm, ⟨8, _⟩ => ⟨S4x16x2048x128, .f32⟩
  | .hbm, ⟨9, _⟩ => ⟨S4x16x2048x2048, .f32⟩
  | .hbm, ⟨10, _⟩ => ⟨S_, .f32⟩
  | .hbm, ⟨11, _⟩ => ⟨S4x16x2048, .f32⟩
  | .hbm, ⟨12, _⟩ => ⟨S_, .f32⟩
  | .hbm, ⟨13, _⟩ => ⟨S4x16x2048, .f32⟩
  | .hbm, ⟨14, _⟩ => ⟨S4x16x2048, .f32⟩
  | .hbm, ⟨15, _⟩ => ⟨S4x16x2048x1, .f32⟩
  | .hbm, ⟨16, _⟩ => ⟨S4x16x2048x2048, .f32⟩
  | .hbm, ⟨17, _⟩ => ⟨S4x16x2048x2048, .f32⟩
  | .hbm, ⟨18, _⟩ => ⟨S4x16x2048x2048, .f32⟩
  | .hbm, ⟨19, _⟩ => ⟨S_, .f32⟩
  | .hbm, ⟨20, _⟩ => ⟨S4x16x2048, .f32⟩
  | .hbm, ⟨21, _⟩ => ⟨S4x16x2048x1, .f32⟩
  | .hbm, ⟨22, _⟩ => ⟨S4x16x2048x2048, .f32⟩
  | .hbm, ⟨23, _⟩ => ⟨S4x16x2048x2048, .f32⟩
  | .hbm, ⟨24, _⟩ => ⟨S4x16x2048x128, .f32⟩
  | _, _ => ⟨S4x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S4x16x2048x128 : S_.BroadcastsInDim S4x16x2048x128 (![] : Fin 0 → Fin S4x16x2048x128.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x128_S4x16x2048x128_S4x16x2048x2048_3_3_2_2_01_01_wf : DotDims.WF S4x16x2048x128 S4x16x2048x128 S4x16x2048x2048 [3] [3] [2] [2] [0, 1] [0, 1]
  dot_S4x16x2048x2048_S4x16x2048x128_S4x16x2048x128_3_2_2_3_01_01_wf : DotDims.WF S4x16x2048x2048 S4x16x2048x128 S4x16x2048x128 [3] [2] [2] [3] [0, 1] [0, 1]

variable [Facts₀]

def dot_S4x16x2048x128_S4x16x2048x128_S4x16x2048x2048_3_3_2_2_01_01 : DotDims S4x16x2048x128 S4x16x2048x128 S4x16x2048x2048 where
  lhsContracting := [3]
  rhsContracting := [3]
  lhsNonContracting := [2]
  rhsNonContracting := [2]
  lhsBatch := [0, 1]
  rhsBatch := [0, 1]
  wf := dot_S4x16x2048x128_S4x16x2048x128_S4x16x2048x2048_3_3_2_2_01_01_wf
def dot_S4x16x2048x2048_S4x16x2048x128_S4x16x2048x128_3_2_2_3_01_01 : DotDims S4x16x2048x2048 S4x16x2048x128 S4x16x2048x128 where
  lhsContracting := [3]
  rhsContracting := [2]
  lhsNonContracting := [2]
  rhsNonContracting := [3]
  lhsBatch := [0, 1]
  rhsBatch := [0, 1]
  wf := dot_S4x16x2048x2048_S4x16x2048x128_S4x16x2048x128_3_2_2_3_01_01_wf

class Facts : Prop extends Facts₀ where

variable [Facts]
-- ==== Proof.Pieces.lean ====
/-
  What one run of the attention body leaves behind, as values of the blocks it loaded.

  At a grid point whose q-tile coordinate is 0 the body first copies the whole key block and the whole value block
  (through the identity re-layout and the change of format) into its two carried scratch buffers, then reads them
  back; at the other points it finds them as the point before left them. In both cases its one store into the
  output block is the attention arithmetic of the query block and the two scratch contents.
-/
import proofs.«401673_j60078002537020_3_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F] [Named F]

theorem hz3 : (![0, 0, 0] : Fin 3 → Nat) = fun _ => 0 := funext fun a => by fin_cases a <;> rfl
theorem hz2 : (![0, 0] : Fin 2 → Nat) = fun _ => 0 := funext fun a => by fin_cases a <;> rfl

/-- At a first q-tile the key scratch ends holding the key block, re-laid and narrowed. -/
theorem keyScratch_first (c : Dev nD) (i : grid0.Coords) (arg2 : Memref sig .tc .vmem S1x1024x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S2048x128 .bf16) (harg6 : arg6.IsWhole) (arg7 : Memref sig .tc .vmem S2048x128 .bf16) (harg7 : arg7.IsWhole) (hc0 : cond0_0 i)
    (x0 : Vec F S1x1024x128 .f32) (x1 : Vec F S1x2048x128 .f32) (x2 : Vec F S1x2048x128 .f32) :
    sout0_A_0 c i arg2 harg2 arg3 harg3 arg4 harg4 arg5 harg5 arg6 harg6 arg7 harg7 hc0 x0 x1 x2 = k0_pay1 x1 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg3.read_unread, View.ld_unit_zero (S := S1x2048x128) hz3]

/-- At a first q-tile the value scratch ends holding the value block, re-laid and narrowed. -/
theorem valScratch_first (c : Dev nD) (i : grid0.Coords) (arg2 : Memref sig .tc .vmem S1x1024x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S2048x128 .bf16) (harg6 : arg6.IsWhole) (arg7 : Memref sig .tc .vmem S2048x128 .bf16) (harg7 : arg7.IsWhole) (hc0 : cond0_0 i)
    (x0 : Vec F S1x1024x128 .f32) (x1 : Vec F S1x2048x128 .f32) (x2 : Vec F S1x2048x128 .f32) :
    sout0_A_1 c i arg2 harg2 arg3 harg3 arg4 harg4 arg5 harg5 arg6 harg6 arg7 harg7 hc0 x0 x1 x2 = k0_pay2 x2 := by
  unfold sout0_A_1
  rw [View.read_writes_eq_canon _ _ _ (scover0_A_1 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg4.read_unread, View.ld_unit_zero (S := S1x2048x128) hz3]

/-- At a first q-tile the output block is the attention arithmetic of the query block and the two scratch buffers
    as the same run has just filled them. -/
theorem out_first (c : Dev nD) (i : grid0.Coords) (arg2 : Memref sig .tc .vmem S1x1024x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S2048x128 .bf16) (harg6 : arg6.IsWhole) (arg7 : Memref sig .tc .vmem S2048x128 .bf16) (harg7 : arg7.IsWhole) (hc0 : cond0_0 i)
    (x0 : Vec F S1x1024x128 .f32) (x1 : Vec F S1x2048x128 .f32) (x2 : Vec F S1x2048x128 .f32) :
    out0_A_3 c i arg2 harg2 arg3 harg3 arg4 harg4 arg5 harg5 arg6 harg6 arg7 harg7 hc0 x0 x1 x2 = k0_pay3 x0 (k0_pay1 x1) (k0_pay2 x2) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero hz3]
  simp only [View.readAt_eq_ld, harg2.read_unread, harg3.read_unread, harg4.read_unread, View.ld_unit_zero (S := S1x1024x128) hz3,
    View.ld_unit_zero (S := S1x2048x128) hz3, View.readCov_unit_zero (S := S2048x128) _ hz2]

/-- At a later q-tile the output block is the attention arithmetic of the query block and the scratch buffers as the
    point before left them. -/
theorem out_later (c : Dev nD) (i : grid0.Coords) (arg2 : Memref sig .tc .vmem S1x1024x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S2048x128 .bf16) (harg6 : arg6.IsWhole) (arg7 : Memref sig .tc .vmem S2048x128 .bf16) (harg7 : arg7.IsWhole) (hc0 : ¬cond0_0 i)
    (x0 : Vec F S1x1024x128 .f32) (x1 : Vec F S1x2048x128 .f32) (x2 : Vec F S1x2048x128 .f32) (xs0 xs1 : Vec F S2048x128 .bf16) :
    out0_B_3 c i arg2 harg2 arg3 harg3 arg4 harg4 arg5 harg5 arg6 harg6 arg7 harg7 hc0 x0 x1 x2 xs0 xs1 = k0_pay3 x0 xs0 xs1 := by
  unfold out0_B_3
  rw [View.read_writes_eq_canon _ _ _ (cover0_B_3 c i arg2 harg2 arg3 harg3 arg4 harg4 arg5 harg5 arg6 harg6 arg7 harg7 hc0 x0 x1 x2 xs0 xs1)]
  unfold kernelRun0_B
  dsimp only
  sl_unfold_words
  rw [View.canon_unit_zero hz3]
  simp only [View.readAt_eq_ld, harg2.read_unread, harg6.read_unread, harg7.read_unread, View.ld_unit_zero (S := S1x1024x128) hz3,
    View.ld_unit_zero (S := S2048x128) hz2]

end Cert.KernelIdeal.Pieces

end
-- ==== Proof.Blocks.lean ====
/-
  What the output block and the two carried scratch buffers hold after each grid point, in closed form.

  The grid runs the 64 (batch, head) pairs in order, two q-tiles each: point `n` is q-tile `n % 2` of pair `n / 2`.
  The key and value scratch are filled at each pair's first q-tile and kept at its second, so after point `n` they
  hold the key and value blocks of the point `n - n % 2`, re-laid and narrowed; the output block after point `n` is
  the attention arithmetic of point `n`'s query block and those two.
-/
import proofs.«401673_j60078002537020_3_alg».proof.Proof.Pieces

set_option maxRecDepth 16384

noncomputable section

namespace Cert.KernelIdeal.Blocks

open Idealize.ShloMosaic Idealize.ShloMosaic.TcCoe Idealize.SL.Sem
open Cert.KernelIdeal Cert.KernelIdeal.Gen Cert.KernelIdeal.Pieces

variable {F : FTy → Type} [FloatOps F] [Named F]
variable (m : (ℓ : Loc nD τ sig) → Buf (Elt F) ℓ)

/-- The query, key and value blocks the windows hold at a point, at their literal types. -/
abbrev qblk (c : Dev nD) (t : Fin cfg0.N) : Vec F S1x1024x128 .f32 := iblk m c 0 t
abbrev kblk (c : Dev nD) (t : Fin cfg0.N) : Vec F S1x2048x128 .f32 := iblk m c 1 t
abbrev vblk (c : Dev nD) (t : Fin cfg0.N) : Vec F S1x2048x128 .f32 := iblk m c 2 t

/-- The first q-tile of the (batch, head) pair that point `n` belongs to. -/
def pairStart (n : ℕ) (h : n < cfg0.N) : Fin cfg0.N := ⟨n - n % 2, lt_of_le_of_lt (Nat.sub_le _ _) h⟩

theorem pairStart_even (n : ℕ) (h : n < cfg0.N) (h0 : n % 2 = 0) : pairStart n h = ⟨n, h⟩ :=
  Fin.ext (by show n - n % 2 = n; omega)

theorem pairStart_odd (n : ℕ) (h : n + 1 < cfg0.N) (h0 : ¬(n + 1) % 2 = 0) :
    pairStart (n + 1) h = pairStart n (Nat.lt_of_succ_lt h) :=
  Fin.ext (by show n + 1 - (n + 1) % 2 = n - n % 2; omega)

/-- After point `n`: the output block, the key scratch and the value scratch. -/
theorem outsAt_eq (c : Dev nD) : ∀ (n : ℕ) (h : n < cfg0.N),
    (outsAt0 m c n h).1 = k0_pay3 (qblk m c ⟨n, h⟩) (k0_pay1 (kblk m c (pairStart n h))) (k0_pay2 (vblk m c (pairStart n h)))
    ∧ (outsAt0 m c n h).2.1 = k0_pay1 (kblk m c (pairStart n h))
    ∧ (outsAt0 m c n h).2.2 = k0_pay2 (vblk m c (pairStart n h))
  | 0, h => by
    rw [outsAt0_A m c ⟨0, h⟩ rfl, pairStart_even 0 h rfl]
    dsimp only
    exact ⟨out_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩),
      keyScratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩),
      valScratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩)⟩
  | n + 1, h => by
    by_cases h0 : (n + 1) % 2 = 0
    · rw [outsAt0_A m c ⟨n + 1, h⟩ h0, pairStart_even (n + 1) h h0]
      dsimp only
      exact ⟨out_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩),
        keyScratch_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩),
        valScratch_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩)⟩
    · have ih := outsAt_eq c n (Nat.lt_of_succ_lt h)
      rw [outsAt0_B m c ⟨n + 1, h⟩ h0, pairStart_odd n h h0]
      dsimp only
      unfold sout0_B_0 sout0_B_1
      refine ⟨?_, ih.2.1, ih.2.2⟩
      refine (out_later c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (iblk m c 0 ⟨n + 1, h⟩) (iblk m c 1 ⟨n + 1, h⟩) (iblk m c 2 ⟨n + 1, h⟩) (outsAt0 m c n (Nat.lt_of_succ_lt h)).2.1 (outsAt0 m c n (Nat.lt_of_succ_lt h)).2.2).trans ?_
      rw [ih.2.1, ih.2.2]

end Cert.KernelIdeal.Blocks

end
-- ==== Proof.BlockReads.lean ====
/-
  The windows' blocks and the host re-layouts, read at an index.

  Point `t` of the grid is q-tile `t % 2` of the (batch, head) pair `t / 2`: its query block is rows
  `(t % 2) · 1024 …` of slab `t / 2` of the [64, 2048, 128] query array, its key and value blocks the whole slab
  `t / 2`. The [64, 2048, 128] arrays are the row-major re-layouts of the [4, 16, 2048, 128] arguments: slab
  `16 · b + h` is (batch `b`, head `h`).
-/
import proofs.«401673_j60078002537020_3_alg».proof.Proof.Blocks
import Idealize.ShloMosaic.Lib.ValueIdx

set_option maxRecDepth 16384

noncomputable section

namespace Cert.KernelIdeal.BlockReads

open Idealize.ShloMosaic Idealize.ShloMosaic.TcCoe Idealize.SL.Sem Idealize.ShloMosaic.ValueIdx
open Cert.KernelIdeal Cert.KernelIdeal.Gen Cert.KernelIdeal.Blocks

variable {F : FTy → Type} [FloatOps F] [Named F]
variable (m : (ℓ : Loc nD τ sig) → Buf (Elt F) ℓ)

/-- The block index of every window at every point, decided over the grid. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = t.val % 2 ∧ win0_3.index t (2 : Fin 3) = 0 :=
  (by decide +kernel : ∀ t : Fin grid0.N, _)

/-- The (batch, head) pair of a point, and the row of the sequence that row `r` of its q-tile is. -/
def pairOf (t : Fin cfg0.N) : Fin 64 := ⟨t.val / 2, by have := t.isLt; have : cfg0.N = 128 := N_0; omega⟩
def rowOf (t : Fin cfg0.N) (r : Fin 1024) : Fin 2048 := ⟨t.val % 2 * 1024 + r.val, by have := r.isLt; omega⟩

theorem pairOf_pairStart (n : ℕ) (h : n < cfg0.N) : pairOf (pairStart n h) = pairOf ⟨n, h⟩ :=
  Fin.ext (by show (n - n % 2) / 2 = n / 2; omega)

/-- The query block at a point, read at a row and a head coordinate. -/
theorem qblk_apply (c : Dev nD) (t : Fin cfg0.N) (r : Fin 1024) (d : Fin 128) :
    qblk m c t (ix3 0 r d) = (V m c main_v0 : S64x2048x128.Idx → Elt F .f32) (ix3 (pairOf t) (rowOf t r) d) := by
  obtain ⟨e0, e1, e2, -⟩ := idx_facts t
  unfold qblk iblk
  rw [View.read_apply]
  show V m c main_v0 _ = V m c main_v0 _
  congr 1
  funext a
  apply Fin.ext
  match a with
  | ⟨0, _⟩ => show win0_0.index t (0 : Fin 3) * 1 + 1 * 0 = t.val / 2; rw [e0]; omega
  | ⟨1, _⟩ => show win0_0.index t (1 : Fin 3) * 1024 + 1 * r.val = t.val % 2 * 1024 + r.val; rw [e1]; omega
  | ⟨2, _⟩ => show win0_0.index t (2 : Fin 3) * 128 + 1 * d.val = d.val; rw [e2]; omega

/-- The key block at a point, read at a key row and a head coordinate. -/
theorem kblk_apply (c : Dev nD) (t : Fin cfg0.N) (k : Fin 2048) (d : Fin 128) :
    kblk m c t (ix3 0 k d) = (V m c main_v1 : S64x2048x128.Idx → Elt F .f32) (ix3 (pairOf t) k d) := by
  obtain ⟨-, -, -, e0, e1, e2, -⟩ := idx_facts t
  unfold kblk iblk
  rw [View.read_apply]
  show V m c main_v1 _ = V m c main_v1 _
  congr 1
  funext a
  apply Fin.ext
  match a with
  | ⟨0, _⟩ => show win0_1.index t (0 : Fin 3) * 1 + 1 * 0 = t.val / 2; rw [e0]; omega
  | ⟨1, _⟩ => show win0_1.index t (1 : Fin 3) * 2048 + 1 * k.val = k.val; rw [e1]; omega
  | ⟨2, _⟩ => show win0_1.index t (2 : Fin 3) * 128 + 1 * d.val = d.val; rw [e2]; omega

/-- The value block at a point, read at a key row and a head coordinate. -/
theorem vblk_apply (c : Dev nD) (t : Fin cfg0.N) (k : Fin 2048) (d : Fin 128) :
    vblk m c t (ix3 0 k d) = (V m c main_v2 : S64x2048x128.Idx → Elt F .f32) (ix3 (pairOf t) k d) := by
  obtain ⟨-, -, -, -, -, -, e0, e1, e2, -⟩ := idx_facts t
  unfold vblk iblk
  rw [View.read_apply]
  show V m c main_v2 _ = V m c main_v2 _
  congr 1
  funext a
  apply Fin.ext
  match a with
  | ⟨0, _⟩ => show win0_2.index t (0 : Fin 3) * 1 + 1 * 0 = t.val / 2; rw [e0]; omega
  | ⟨1, _⟩ => show win0_2.index t (1 : Fin 3) * 2048 + 1 * k.val = k.val; rw [e1]; omega
  | ⟨2, _⟩ => show win0_2.index t (2 : Fin 3) * 128 + 1 * d.val = d.val; rw [e2]; omega

/-! ## The host re-layouts -/

/-- The three arrays the region finds are the row-major re-layouts of the arguments. -/
theorem V_main_v0 (c : Dev nD) : (V m c main_v0 : S64x2048x128.Idx → Elt F .f32)
    = shapeCast S64x2048x128 (m ((c : Thread nD τ).loc main_arg0)) shapeCasts_S4x16x2048x128_S64x2048x128 := by
  show StableHlo.after hostOps0 (fun b => m (c, b)) (Proc.devRef .tc main_v0) = _
  after_results
  rfl
theorem V_main_v1 (c : Dev nD) : (V m c main_v1 : S64x2048x128.Idx → Elt F .f32)
    = shapeCast S64x2048x128 (m ((c : Thread nD τ).loc main_arg1)) shapeCasts_S4x16x2048x128_S64x2048x128 := by
  show StableHlo.after hostOps0 (fun b => m (c, b)) (Proc.devRef .tc main_v1) = _
  after_results
  rfl
theorem V_main_v2 (c : Dev nD) : (V m c main_v2 : S64x2048x128.Idx → Elt F .f32)
    = shapeCast S64x2048x128 (m ((c : Thread nD τ).loc main_arg2)) shapeCasts_S4x16x2048x128_S64x2048x128 := by
  show StableHlo.after hostOps0 (fun b => m (c, b)) (Proc.devRef .tc main_v2) = _
  after_results
  rfl

/-- Slab `16 b + h` of the re-laid array is (batch `b`, head `h`) of the argument. -/
theorem slab_apply {α : Type} (x : S4x16x2048x128.Idx → α) (b : Fin 4) (h : Fin 16) (r : Fin 2048) (d : Fin 128) :
    shapeCast S64x2048x128 x shapeCasts_S4x16x2048x128_S64x2048x128
      (ix3 (⟨16 * b.val + h.val, by have := b.isLt; have := h.isLt; omega⟩ : Fin 64) r d) = x (ix4 b h r d) := by
  refine shapeCast_apply x _ _ _ ?_
  rw [Shape.rowMajor_val_four, Shape.rowMajor_val_three]
  show ((b.val * 16 + h.val) * 2048 + r.val) * 128 + d.val = ((16 * b.val + h.val) * 2048 + r.val) * 128 + d.val
  omega

/-- And back: (batch `b`, head `h`) of the result is slab `16 b + h` of the [64, 2048, 128] array. -/
theorem unslab_apply {α : Type} (y : S64x2048x128.Idx → α) (b : Fin 4) (h : Fin 16) (r : Fin 2048) (d : Fin 128) :
    shapeCast S4x16x2048x128 y shapeCasts_S64x2048x128_S4x16x2048x128 (ix4 b h r d)
      = y (ix3 (⟨16 * b.val + h.val, by have := b.isLt; have := h.isLt; omega⟩ : Fin 64) r d) := by
  refine shapeCast_apply y _ _ _ ?_
  rw [Shape.rowMajor_val_four, Shape.rowMajor_val_three]
  show ((16 * b.val + h.val) * 2048 + r.val) * 128 + d.val = ((b.val * 16 + h.val) * 2048 + r.val) * 128 + d.val
  omega

end Cert.KernelIdeal.BlockReads

end
-- ==== Proof.Attention.lean ====
/-
  Scaled dot-product attention over f32[4, 16, 2048, 128] inputs, as ONE function of the three argument arrays on
  the extended reals, in the two arrangements the programs compute it in.

  For a batch `b`, a head `h` and a query row `r` the LOGITS are `s k = ∑ d, q[b,h,r,d] · k[b,h,k,d]` up to the scale:
  the reference divides each factor by the literal `D` (the f32 nearest to 128^(1/4)), the kernel multiplies the
  query factor by one constant `c`. With `M = max_k s k`, `p k = exp (s k - M)` and `l = ∑ k, p k`:
  the reference's result is `∑ k, (p k / l) · v[b,h,k,j]` (softmax first, then the weighted sum), the kernel's
  `(∑ k, p k · v[b,h,k,j]) / l` (the weighted sum first, one division per output element).
-/
import Idealize.ShloMosaic.PureOps.Ideal
import Idealize.ShloMosaic.Lib.ValueIdx

noncomputable section

namespace Cert.Attention

open Idealize.ShloMosaic Idealize.ShloMosaic.ValueIdx

/-- The shape of the query, key and value arrays and of the result: batch, head, sequence position, head dimension. -/
abbrev SQ : Shape := ⟨4, ![4, 16, 2048, 128]⟩

/-- The coordinates of an index of `SQ`, at their literal extents. -/
abbrev cb (i : SQ.Idx) : Fin 4 := ⟨(i 0).val, (i 0).isLt⟩
abbrev ch (i : SQ.Idx) : Fin 16 := ⟨(i 1).val, (i 1).isLt⟩
abbrev cr (i : SQ.Idx) : Fin 2048 := ⟨(i 2).val, (i 2).isLt⟩
abbrev cj (i : SQ.Idx) : Fin 128 := ⟨(i 3).val, (i 3).isLt⟩

/-- The reference's divisor as printed: the f32 word nearest to the fourth root of 128. -/
abbrev rootLit : EReal := Ideal.ofBits .f32 0x405744FD#32

/-- The reference's logit of query row `r` against key row `k`: both factors divided by the literal. -/
def logitDiv (Q K : SQ.Idx → EReal) (b : Fin 4) (h : Fin 16) (r k : Fin 2048) : EReal :=
  ∑ d : Fin 128, Ideal.div (Q (ix4 b h r d)) rootLit * Ideal.div (K (ix4 b h k d)) rootLit

/-- The kernel's logit: the query factor scaled by one constant `c`, the key factor as it is. -/
def logitScaled (c : EReal) (Q K : SQ.Idx → EReal) (b : Fin 4) (h : Fin 16) (r k : Fin 2048) : EReal :=
  ∑ d : Fin 128, (Q (ix4 b h r d) * c) * K (ix4 b h k d)

/-- A row's maximum, from `-∞`. -/
def rowMax (s : Fin 2048 → EReal) : EReal := (Finset.univ : Finset (Fin 2048)).fold max ⊥ s

/-- The unnormalised softmax weights of a row of logits. -/
def expShift (s : Fin 2048 → EReal) (k : Fin 2048) : EReal := Ideal.exp (s k - rowMax s)

/-- Softmax first, then the weighted sum of the values (the reference's arrangement). -/
def softmaxThenSum (s v : Fin 2048 → EReal) : EReal :=
  ∑ k : Fin 2048, Ideal.div (expShift s k) (∑ k' : Fin 2048, expShift s k') * v k

/-- The weighted sum of the values first, one division by the weights' sum after it (the kernel's arrangement). -/
def sumThenNormalise (s v : Fin 2048 → EReal) : EReal :=
  Ideal.div (∑ k : Fin 2048, expShift s k * v k) (∑ k : Fin 2048, expShift s k)

/-- Attention as the reference arranges it, element by element. -/
def attnRef (Q K V : SQ.Idx → EReal) : SQ.Idx → EReal := fun i =>
  softmaxThenSum (logitDiv Q K (cb i) (ch i) (cr i)) (fun k => V (ix4 (cb i) (ch i) k (cj i)))

/-- Attention as the kernel arranges it, with its scale `c`, element by element. -/
def attnKer (c : EReal) (Q K V : SQ.Idx → EReal) : SQ.Idx → EReal := fun i =>
  sumThenNormalise (logitScaled c Q K (cb i) (ch i) (cr i)) (fun k => V (ix4 (cb i) (ch i) k (cj i)))

end Cert.Attention

end
-- ==== Proof.Payload.lean ====
/-
  The kernel body's arithmetic read at an index, on the extended reals.

  The body loads a block of 1024 query rows and the whole key and value panels of one (batch, head) pair, and
  computes, for a query row `r` and an output lane `j`:
    q' r d = q r d · c                       (the scaled query, `c` the body's one named constant)
    s r k  = ∑ d, q' r d · key k d           (the logits, a contraction over the head dimension)
    M r    = max_k s r k                     (the row maximum, from -∞)
    p r k  = exp (s r k - M r)               (the unnormalised weights)
    l r    = ∑ k, p r k                      (their sum)
    o r j  = (∑ k, p r k · val k j) / l r    (the weighted sum of the values, divided once)
  Every format change is the identity on the extended reals and every shape cast is a re-indexing, so the stored
  element at `(0, r, j)` is `sumThenNormalise` of the row of logits and the column of values. The two side
  payloads (the key and value panels, kept once per (batch, head) pair) are the loaded panels themselves.
-/
import proofs.«401673_j60078002537020_3_alg».proof.Proof.Gen.KernelIdeal.Skeleton
import proofs.«401673_j60078002537020_3_alg».proof.Proof.Attention
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Attention

/-- The body's one named constant: the factor the query is scaled by. -/
abbrev scaleK : EReal := Named.named (F := Ideal) Cert.KernelIdeal.κ "inv_sqrt_d" (φ := .f32) 0x3DB504F3#32

/-! ## The two side payloads: the key and value panels -/

/-- The key panel as stored: the loaded block with its leading unit axis dropped. -/
theorem k0_pay1_apply (x : Vec Ideal S1x2048x128 .f32) (k : Fin 2048) (d : Fin 128) :
    k0_pay1 (F := Ideal) x (ix2 k d) = x (ix3 0 k d) := by
  unfold k0_pay1
  rw [shapeCast_self, truncf_apply]
  exact shapeCast_1ab_ab_apply x _ k d

/-- The value panel as stored: the loaded block with its leading unit axis dropped. -/
theorem k0_pay2_apply (x : Vec Ideal S1x2048x128 .f32) (k : Fin 2048) (d : Fin 128) :
    k0_pay2 (F := Ideal) x (ix2 k d) = x (ix3 0 k d) := by
  unfold k0_pay2
  rw [shapeCast_self, truncf_apply]
  exact shapeCast_1ab_ab_apply x _ k d

/-! ## The layout operations of the body, read at coordinates -/

section Layout
variable {α : Type}

/-- A vector of length `a` cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two contractions, read at coordinates -/

/-- The query-times-key contraction's left operand index at output `(r, k)`: its row is `r`. -/
theorem lhs_qk_0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
/-- Its column is the contraction coordinate. -/
theorem lhs_qk_1 (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
/-- The right operand's row is the output's column `k`. -/
theorem rhs_qk_0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
/-- Its column is the contraction coordinate. -/
theorem rhs_qk_1 (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

/-- The logits: the query-times-key contraction into the zero accumulator at `(r, k)` is the sum over the head
    dimension of the query row `r` times the key row `k`. -/
theorem matmul_qk_apply (q : FVec Ideal S1024x128 .bf16) (ks : FVec Ideal S2048x128 .bf16) (r : Fin 1024) (k : Fin 2048) :
    matmul dot_S1024x128_S2048x128_S1024x2048_1_1_0_0_n_n none q ks (constant S1024x2048 .f32 0x00000000#32) (ix2 r k)
      = ∑ d : Fin 128, q (ix2 r d) * ks (ix2 k d) := by
  simp only [matmul]
  rw [Ideal.matmul_constant_zero_apply, ← Equiv.sum_comp (contrEquiv1 dot_S1024x128_S2048x128_S1024x2048_1_1_0_0_n_n 128 rfl rfl).symm]
  refine Finset.sum_congr rfl fun d _ => ?_
  have hd := contrEquiv1_symm_val dot_S1024x128_S2048x128_S1024x2048_1_1_0_0_n_n 128 rfl rfl d
  have el : dot_S1024x128_S2048x128_S1024x2048_1_1_0_0_n_n.lhsIdx (ix2 r k) ((contrEquiv1 dot_S1024x128_S2048x128_S1024x2048_1_1_0_0_n_n 128 rfl rfl).symm d) = ix2 r d := funext fun a => Fin.ext (by
    match a with
    | ⟨0, _⟩ => exact lhs_qk_0 _ _
    | ⟨1, _⟩ => exact (lhs_qk_1 _ _).trans hd)
  have er : dot_S1024x128_S2048x128_S1024x2048_1_1_0_0_n_n.rhsIdx (ix2 r k) ((contrEquiv1 dot_S1024x128_S2048x128_S1024x2048_1_1_0_0_n_n 128 rfl rfl).symm d) = ix2 k d := funext fun a => Fin.ext (by
    match a with
    | ⟨0, _⟩ => exact rhs_qk_0 _ _
    | ⟨1, _⟩ => exact (rhs_qk_1 _ _).trans hd)
  rw [el, er]

/-- The weights-times-values contraction's left operand index at output `(r, j)`: its row is `r`. -/
theorem lhs_pv_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
/-- Its column is the contraction coordinate. -/
theorem lhs_pv_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
/-- The right operand's row is the contraction coordinate. -/
theorem rhs_pv_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
/-- Its column is the output's lane `j`. -/
theorem rhs_pv_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The weighted sum of the values: the weights-times-values contraction into the zero accumulator at `(r, j)` is the
    sum over the key positions of the weight row `r` times the value column `j`. -/
theorem matmul_pv_apply (p : FVec Ideal S1024x2048 .bf16) (vs : FVec Ideal S2048x128 .bf16) (r : Fin 1024) (j : Fin 128) :
    matmul dot_S1024x2048_S2048x128_S1024x128_1_0_0_1_n_n none p vs (constant S1024x128 .f32 0x00000000#32) (ix2 r j)
      = ∑ k : Fin 2048, p (ix2 r k) * vs (ix2 k j) := by
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 r j) ((contrEquiv1 dot_S1024x2048_S2048x128_S1024x128_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S1024x2048_S2048x128_S1024x128_1_0_0_1_n_n.rhsIdx (ix2 r j) ((contrEquiv1 dot_S1024x2048_S2048x128_S1024x128_1_0_0_1_n_n 2048 rfl rfl).symm k) = ix2 k j := funext fun a => Fin.ext (by
    match a with
    | ⟨0, _⟩ => exact (rhs_pv_0 _ _).trans hk
    | ⟨1, _⟩ => exact rhs_pv_1 _ _)
  rw [el, er]

/-! ## The two lane reductions, read at a row -/

/-- The index of the logits' block over row `r` with coordinate `k` inserted on the reduced axis is `(r, k)`. -/
theorem lift_row (r : Fin 1024) (k : Fin 2048) :
    reduces_S1024x2048_S1024.lift (ix1 r) k = ix2 r k :=
  funext fun a => Fin.ext (by match a with | ⟨0, _⟩ => rfl | ⟨1, _⟩ => rfl)

/-- The lane maximum of a block of logits at row `r` is that row's maximum, from `-∞`. -/
theorem rowMax_apply (s : FVec Ideal S1024x2048 .f32) (hφ : FKind.Formats .f32)
    (hacc : (0xFF800000#32 : BitVec 32) = FKind.maximumf.neutral .f32 hφ) (r : Fin 1024) :
    multiReduction (F := Ideal) .maximumf [1] S1024 s 0xFF800000#32 reduces_S1024x2048_S1024 hφ hacc (ix1 r)
      = rowMax (fun k => s (ix2 r k)) := by
  refine (Ideal.multiReduction_maximumf_single s _ reduces_S1024x2048_S1024 hφ hacc (ix1 r)).trans ?_
  unfold rowMax
  have hb : FloatOps.ofBits (F := Ideal) .f32 0xFF800000#32 = ⊥ := by simp [Ideal.ofBits, Ideal.ieee]
  have hf : s ∘ reduces_S1024x2048_S1024.lift (ix1 r) = fun k : Fin 2048 => s (ix2 r k) :=
    funext fun k => congrArg s (lift_row r k)
  rw [hb, hf]
  rfl

/-- The lane sum of a block at row `r` is the sum of that row. -/
theorem rowSum_apply (p : FVec Ideal S1024x2048 .f32) (hφ : FKind.Formats .f32)
    (hacc : (0x00000000#32 : BitVec 32) = FKind.add.neutral .f32 hφ) (r : Fin 1024) :
    multiReduction (F := Ideal) .add [1] S1024 p 0x00000000#32 reduces_S1024x2048_S1024 hφ hacc (ix1 r)
      = ∑ k : Fin 2048, p (ix2 r k) := by
  refine (Ideal.multiReduction_add_single p _ reduces_S1024x2048_S1024 hφ hacc (ix1 r)).trans ?_
  exact Finset.sum_congr rfl fun k _ => congrArg p (lift_row r k)

/-! ## The body's stages, read at coordinates -/

/-- The scaled query at `(r, d)`: the loaded block's element at `(0, r, d)` times the constant. -/
theorem scaledQuery_apply (x0 : Vec Ideal S1x1024x128 .f32) (c : EReal) (r : Fin 1024) (d : Fin 128) :
    (truncf .bf16 (mulf (shapeCast S1024x128 x0 shapeCasts_S1x1024x128_S1024x128) (broadcast S1024x128 c)) bitsLt_bf16_f32
        : FVec Ideal S1024x128 .bf16) (ix2 r d)
      = x0 (ix3 0 r d) * c := by
  rw [truncf_apply, mulf_apply, broadcast_apply]
  exact congrArg (· * c) (shapeCast_1ab_ab_apply x0 _ r d)

/-- The row maximum kept as a column and broadcast back over the lanes reads, at `(r, k)`, the maximum of row `r`. -/
theorem rowMaxBroadcast_apply (s : FVec Ideal S1024x2048 .f32) (hφ : FKind.Formats .f32)
    (hacc : (0xFF800000#32 : BitVec 32) = FKind.maximumf.neutral .f32 hφ) (r : Fin 1024) (k : Fin 2048) :
    broadcastTo S1024x2048
        (shapeCast S1024x1 (multiReduction (F := Ideal) .maximumf [1] S1024 s 0xFF800000#32 reduces_S1024x2048_S1024 hφ hacc)
          shapeCasts_S1024_S1024x1)
        broadcasts_S1024x1_S1024x2048 (ix2 r k)
      = rowMax (fun k' => s (ix2 r k')) := by
  refine (broadcastTo_a1_ab_apply _ broadcasts_S1024x1_S1024x2048 r k).trans ?_
  refine (shapeCast_a_a1_apply _ shapeCasts_S1024_S1024x1 r 0).trans ?_
  exact rowMax_apply s hφ hacc r

/-- The unnormalised weights at `(r, k)`: `expShift` of row `r` of the logits. -/
theorem weights_apply (s : FVec Ideal S1024x2048 .f32) (hφ : FKind.Formats .f32)
    (hacc : (0xFF800000#32 : BitVec 32) = FKind.maximumf.neutral .f32 hφ) (r : Fin 1024) (k : Fin 2048) :
    exp (subf s (broadcastTo S1024x2048
        (shapeCast S1024x1 (multiReduction (F := Ideal) .maximumf [1] S1024 s 0xFF800000#32 reduces_S1024x2048_S1024 hφ hacc)
          shapeCasts_S1024_S1024x1)
        broadcasts_S1024x1_S1024x2048)) (ix2 r k)
      = expShift (fun k' => s (ix2 r k')) k := by
  show Ideal.exp (subf s _ (ix2 r k)) = _
  rw [subf_apply, rowMaxBroadcast_apply s hφ hacc r k]
  rfl

/-- The weights' sum kept as a column and broadcast over the output lanes reads, at `(r, j)`, the sum of row `r`. -/
theorem rowSumBroadcast_apply (p : FVec Ideal S1024x2048 .f32) (hφ : FKind.Formats .f32)
    (hacc : (0x00000000#32 : BitVec 32) = FKind.add.neutral .f32 hφ) (r : Fin 1024) (j : Fin 128) :
    broadcastTo S1024x128
        (shapeCast S1024x1 (multiReduction (F := Ideal) .add [1] S1024 p 0x00000000#32 reduces_S1024x2048_S1024 hφ hacc)
          shapeCasts_S1024_S1024x1)
        broadcasts_S1024x1_S1024x128 (ix2 r j)
      = ∑ k : Fin 2048, p (ix2 r k) := by
  refine (broadcastTo_a1_ab_apply _ broadcasts_S1024x1_S1024x128 r j).trans ?_
  refine (shapeCast_a_a1_apply _ shapeCasts_S1024_S1024x1 r 0).trans ?_
  exact rowSum_apply p hφ hacc r

/-- The body's last stages over a block of weights `p`: the weighted sum of the values divided by the weights' sum, stored
    under a leading unit axis. -/
theorem quotient_apply (p : FVec Ideal S1024x2048 .f32) (vs : FVec Ideal S2048x128 .bf16) (hφ : FKind.Formats .f32)
    (hacc : (0x00000000#32 : BitVec 32) = FKind.add.neutral .f32 hφ) (r : Fin 1024) (j : Fin 128) :
    shapeCast S1x1024x128
        (divf
          (matmul dot_S1024x2048_S2048x128_S1024x128_1_0_0_1_n_n none (truncf .bf16 p bitsLt_bf16_f32) vs
            (constant S1024x128 .f32 0x00000000#32))
          (broadcastTo S1024x128
            (shapeCast S1024x1 (multiReduction (F := Ideal) .add [1] S1024 p 0x00000000#32 reduces_S1024x2048_S1024 hφ hacc)
              shapeCasts_S1024_S1024x1)
            broadcasts_S1024x1_S1024x128))
        shapeCasts_S1024x128_S1x1024x128 (ix3 0 r j)
      = Ideal.div (∑ k : Fin 2048, p (ix2 r k) * vs (ix2 k j)) (∑ k : Fin 2048, p (ix2 r k)) := by
  refine (shapeCast_ab_1ab_apply _ shapeCasts_S1024x128_S1x1024x128 0 r j).trans ?_
  rw [divf_apply, rowSumBroadcast_apply p hφ hacc r j, matmul_pv_apply]
  rfl

/-- The body from its logits on: over a block of logits `s`, the stored element at `(0, r, j)` is the kernel's arrangement
    of attention over row `r` of the logits and column `j` of the values. -/
theorem fromLogits_apply (s : FVec Ideal S1024x2048 .f32) (vs : FVec Ideal S2048x128 .bf16) (hφ : FKind.Formats .f32)
    (hmax : (0xFF800000#32 : BitVec 32) = FKind.maximumf.neutral .f32 hφ)
    (hadd : (0x00000000#32 : BitVec 32) = FKind.add.neutral .f32 hφ) (r : Fin 1024) (j : Fin 128) :
    shapeCast S1x1024x128
        (divf
          (matmul dot_S1024x2048_S2048x128_S1024x128_1_0_0_1_n_n none
            (truncf .bf16
              (exp (subf s (broadcastTo S1024x2048
                (shapeCast S1024x1 (multiReduction (F := Ideal) .maximumf [1] S1024 s 0xFF800000#32 reduces_S1024x2048_S1024 hφ hmax)
                  shapeCasts_S1024_S1024x1)
                broadcasts_S1024x1_S1024x2048)))
              bitsLt_bf16_f32)
            vs (constant S1024x128 .f32 0x00000000#32))
          (broadcastTo S1024x128
            (shapeCast S1024x1
              (multiReduction (F := Ideal) .add [1] S1024
                (exp (subf s (broadcastTo S1024x2048
                  (shapeCast S1024x1 (multiReduction (F := Ideal) .maximumf [1] S1024 s 0xFF800000#32 reduces_S1024x2048_S1024 hφ hmax)
                    shapeCasts_S1024_S1024x1)
                  broadcasts_S1024x1_S1024x2048)))
                0x00000000#32 reduces_S1024x2048_S1024 hφ hadd)
              shapeCasts_S1024_S1024x1)
            broadcasts_S1024x1_S1024x128))
        shapeCasts_S1024x128_S1x1024x128 (ix3 0 r j)
      = sumThenNormalise (fun k => s (ix2 r k)) (fun k => vs (ix2 k j)) := by
  refine (quotient_apply _ vs hφ hadd r j).trans ?_
  unfold sumThenNormalise
  exact congrArg₂ Ideal.div
    (Finset.sum_congr rfl fun k _ => congrArg (· * vs (ix2 k j)) (weights_apply s hφ hmax r k))
    (Finset.sum_congr rfl fun k _ => weights_apply s hφ hmax r k)

/-! ## The main payload -/

/-- The stored output block at `(0, r, j)`: the kernel's arrangement of attention for query row `r` and lane `j`, over
    the logits of the scaled query row against every key row and the value column `j`. -/
theorem k0_pay3_apply (x0 : Vec Ideal S1x1024x128 .f32) (ks vs : Vec Ideal S2048x128 .bf16) (r : Fin 1024) (j : Fin 128) :
    k0_pay3 (F := Ideal) x0 ks vs (ix3 0 r j)
      = sumThenNormalise (fun k => ∑ d : Fin 128, (x0 (ix3 0 r d) * scaleK) * ks (ix2 k d)) (fun k => vs (ix2 k j)) := by
  unfold k0_pay3
  refine (fromLogits_apply _ vs _ _ _ r j).trans ?_
  refine congrArg (fun f => sumThenNormalise f fun k => vs (ix2 k j)) (funext fun k => ?_)
  refine (matmul_qk_apply _ ks r k).trans ?_
  exact Finset.sum_congr rfl fun d _ => congrArg (· * ks (ix2 k d)) (scaledQuery_apply x0 scaleK r d)

end Cert.KernelIdeal.Payload

end
-- ==== Proof.KernelValue.lean ====
/-
  The kernel's result array at the ideal instance: attention in the kernel's arrangement, of the three arguments.

  Each grid point writes back one [1024, 128] tile of a slab of the [64, 2048, 128] result: rows
  `(t % 2) · 1024 …` of slab `t / 2`, each element the weighted sum of that slab's values divided by the weights'
  sum, the weights the shifted exponentials of the scaled query row against that slab's keys. The 128 tiles cover the
  array, and the host's last re-layout reads slab `16 b + h` back as (batch `b`, head `h`).
-/
import proofs.«401673_j60078002537020_3_alg».proof.Proof.BlockReads
import proofs.«401673_j60078002537020_3_alg».proof.Proof.Payload
import proofs.«401673_j60078002537020_3_alg».proof.Proof.Attention

set_option maxRecDepth 16384

noncomputable section

namespace Cert.KernelIdeal.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.BlockReads Cert.KernelIdeal.Payload Cert.Attention

variable (m : (ℓ : Loc nD τ sig) → Buf (Elt Ideal) ℓ) (ρ : Dev nD → PrngReg)

/-- The three [64, 2048, 128] arrays as the region finds them, at their literal type. -/
abbrev qArr (c : Dev nD) : Vec Ideal S64x2048x128 .f32 := V m c main_v0
abbrev kArr (c : Dev nD) : Vec Ideal S64x2048x128 .f32 := V m c main_v1
abbrev vArr (c : Dev nD) : Vec Ideal S64x2048x128 .f32 := V m c main_v2

/-- Each is the row-major re-layout of an argument. -/
theorem qArr_eq (c : Dev nD) : qArr m c
    = shapeCast S64x2048x128 (m ((c : Thread nD τ).loc main_arg0)) shapeCasts_S4x16x2048x128_S64x2048x128 := V_main_v0 m c
theorem kArr_eq (c : Dev nD) : kArr m c
    = shapeCast S64x2048x128 (m ((c : Thread nD τ).loc main_arg1)) shapeCasts_S4x16x2048x128_S64x2048x128 := V_main_v1 m c
theorem vArr_eq (c : Dev nD) : vArr m c
    = shapeCast S64x2048x128 (m ((c : Thread nD τ).loc main_arg2)) shapeCasts_S4x16x2048x128_S64x2048x128 := V_main_v2 m c

/-- Attention slab by slab: the [64, 2048, 128] result as a function of the three [64, 2048, 128] arrays. -/
def slabAttn (Q K V : Vec Ideal S64x2048x128 .f32) : Vec Ideal S64x2048x128 .f32 := fun i =>
  sumThenNormalise
    (fun k => ∑ d : Fin 128, (Q (ix3 (⟨(i 0).val, (i 0).isLt⟩ : Fin 64) (⟨(i 1).val, (i 1).isLt⟩ : Fin 2048) d) * scaleK)
      * K (ix3 (⟨(i 0).val, (i 0).isLt⟩ : Fin 64) k d))
    (fun k => V (ix3 (⟨(i 0).val, (i 0).isLt⟩ : Fin 64) k (⟨(i 2).val, (i 2).isLt⟩ : Fin 128)))

/-- The output block after point `t`, at row `r` and column `j`: the slab function at the tile's place. -/
theorem out_apply (c : Dev nD) (t : Fin cfg0.N) (r : Fin 1024) (j : Fin 128) :
    (outsAt0 m c t.val t.isLt).1 (ix3 0 r j)
      = slabAttn (qArr m c) (kArr m c) (vArr m c) (ix3 (pairOf t) (rowOf t r) j) := by
  rw [(outsAt_eq m c t.val t.isLt).1, k0_pay3_apply]
  unfold slabAttn
  have hl : (fun k : Fin 2048 => ∑ d : Fin 128, (qblk m c ⟨t.val, t.isLt⟩ (ix3 0 r d) * scaleK)
        * k0_pay1 (F := Ideal) (kblk m c (pairStart t.val t.isLt)) (ix2 k d))
      = fun k : Fin 2048 => ∑ d : Fin 128, (qArr m c (ix3 (pairOf t) (rowOf t r) d) * scaleK)
        * kArr m c (ix3 (pairOf t) k d) := by
    funext k
    refine Finset.sum_congr rfl fun d _ => ?_
    rw [k0_pay1_apply, kblk_apply, qblk_apply, pairOf_pairStart]
  have hv : (fun k : Fin 2048 => k0_pay2 (F := Ideal) (vblk m c (pairStart t.val t.isLt)) (ix2 k j))
      = fun k : Fin 2048 => vArr m c (ix3 (pairOf t) k j) := by
    funext k
    rw [k0_pay2_apply, vblk_apply, pairOf_pairStart]
  rw [hl, hv]

/-- What point `t` writes back is tile `t` of the slab function of the arrays the region finds. -/
theorem flushed_eq (c : Dev nD) (t : Fin cfg0.N) :
    (dats m 0 c).flushed 3 t
      = ((cfg0.win 3).blk t).view.read (Elt Ideal) (slabAttn (qArr m c) (kArr m c) (vArr m c)) := by
  show (cfg0.win 3).cut (grid0.coords t) ((dats m 0 c).after 3 t) = _
  rw [after0_3]
  obtain ⟨-, -, -, -, -, -, -, -, -, e0, e1, e2⟩ := idx_facts t
  funext y
  rw [View.read_apply]
  have h0 : (y 0).val < 1 := (y 0).isLt
  have ey : y = ix3 (0 : Fin 1) (⟨(y 1).val, (y 1).isLt⟩ : Fin 1024) (⟨(y 2).val, (y 2).isLt⟩ : Fin 128) :=
    funext fun a => Fin.ext (by
      match a with
      | ⟨0, _⟩ => show (y 0).val = 0; omega
      | ⟨1, _⟩ => rfl
      | ⟨2, _⟩ => rfl)
  have e : ((cfg0.win 3).blk t).view.emb y
      = ix3 (pairOf t) (rowOf t (⟨(y 1).val, (y 1).isLt⟩ : Fin 1024)) (⟨(y 2).val, (y 2).isLt⟩ : Fin 128) :=
    funext fun a => Fin.ext (by
      match a with
      | ⟨0, _⟩ => show win0_3.index t (0 : Fin 3) * 1 + 1 * (y 0).val = t.val / 2; rw [e0]; omega
      | ⟨1, _⟩ => show win0_3.index t (1 : Fin 3) * 1024 + 1 * (y 1).val = t.val % 2 * 1024 + (y 1).val; rw [e1]; omega
      | ⟨2, _⟩ => show win0_3.index t (2 : Fin 3) * 128 + 1 * (y 2).val = (y 2).val; rw [e2]; omega)
  exact ((congrArg (outsAt0 m c t.val t.isLt).1 ey).trans (out_apply m c t _ _)).trans
    (congrArg (slabAttn (qArr m c) (kArr m c) (vArr m c)) e.symm)

/-- An index of the result array is in point `t`'s tile iff each coordinate is in the tile's range on its axis. -/
theorem mem_blk (t : Fin cfg0.N) (i : S64x2048x128.Idx) :
    i ∈ ((cfg0.win 3).blk t).view.set ↔ ∀ a : Fin 3, win0_3.index t a * S1x1024x128.size a ≤ (i a).val
      ∧ (i a).val < win0_3.index t a * S1x1024x128.size a + S1x1024x128.size a := by
  show i ∈ ((View.whole main_v3).slice (win0_3.rect t)).set ↔ _
  rw [View.set_slice_whole, Rect.mem_set_unit]
  exact Iff.rfl

/-- Every index of the result array is in the tile of the point `2 · slab + row / 1024`, which writes back. -/
theorem cover (i : S64x2048x128.Idx) :
    ∃ t : Fin cfg0.N, (cfg0.win 3).flush t = true ∧ i ∈ ((cfg0.win 3).blk t).view.set := by
  have h0 : (i 0).val < 64 := (i 0).isLt
  have h1 : (i 1).val < 2048 := (i 1).isLt
  have h2 : (i 2).val < 128 := (i 2).isLt
  have hN : cfg0.N = 128 := N_0
  have hlt : 2 * (i 0).val + (i 1).val / 1024 < cfg0.N := by omega
  obtain ⟨-, -, -, -, -, -, -, -, -, e0, e1, e2⟩ := idx_facts ⟨2 * (i 0).val + (i 1).val / 1024, hlt⟩
  refine ⟨⟨2 * (i 0).val + (i 1).val / 1024, hlt⟩, flush0_3 _, ?_⟩
  rw [mem_blk]
  intro a
  match a with
  | ⟨0, _⟩ =>
    show win0_3.index ⟨2 * (i 0).val + (i 1).val / 1024, hlt⟩ (0 : Fin 3) * 1 ≤ (i 0).val
      ∧ (i 0).val < win0_3.index ⟨2 * (i 0).val + (i 1).val / 1024, hlt⟩ (0 : Fin 3) * 1 + 1
    rw [e0]; dsimp only; omega
  | ⟨1, _⟩ =>
    show win0_3.index ⟨2 * (i 0).val + (i 1).val / 1024, hlt⟩ (1 : Fin 3) * 1024 ≤ (i 1).val
      ∧ (i 1).val < win0_3.index ⟨2 * (i 0).val + (i 1).val / 1024, hlt⟩ (1 : Fin 3) * 1024 + 1024
    rw [e1]; dsimp only; omega
  | ⟨2, _⟩ =>
    show win0_3.index ⟨2 * (i 0).val + (i 1).val / 1024, hlt⟩ (2 : Fin 3) * 128 ≤ (i 2).val
      ∧ (i 2).val < win0_3.index ⟨2 * (i 0).val + (i 1).val / 1024, hlt⟩ (2 : Fin 3) * 128 + 128
    rw [e2]; omega

/-- The [64, 2048, 128] result array after the run. -/
theorem final (c : Dev nD) :
    (dats m 0 c).arrAt 3 cfg0.N = slabAttn (qArr m c) (kArr m c) (vArr m c) :=
  (dats m 0 c).arrAt_eq_of_cover 3 (slabAttn (qArr m c) (kArr m c) (vArr m c))
    (fun t _ => flushed_eq m c t) cover

/-- The host's last re-layout of it. -/
theorem tail_eq (c : Dev nD) :
    Pipeline.afterTail₀ cfgs (dats m) 0 (V0 m) [hostOps1] c main_v4
      = shapeCast S4x16x2048x128 (slabAttn (qArr m c) (kArr m c) (vArr m c)) shapeCasts_S64x2048x128_S4x16x2048x128 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = slabAttn (qArr m c) (kArr m c) (vArr m c) :=
    (Pipeline.withArrays_arr spec0 launch0.win.arr_inj c _ _ 3).trans (final m c)
  exact congrArg (fun y : Vec Ideal S64x2048x128 .f32 => shapeCast S4x16x2048x128 y shapeCasts_S64x2048x128_S4x16x2048x128) hw

/-- Read back as [4, 16, 2048, 128] it is attention of the three arguments, in the kernel's arrangement. -/
theorem result_eq (c : Dev nD) :
    shapeCast S4x16x2048x128 (slabAttn (qArr m c) (kArr m c) (vArr m c)) shapeCasts_S64x2048x128_S4x16x2048x128
      = attnKer scaleK (m ((c.tc : Thread nD τ).loc main_arg0)) (m ((c.tc : Thread nD τ).loc main_arg1))
          (m ((c.tc : Thread nD τ).loc main_arg2)) := by
  funext i
  obtain ⟨b, h, r, j, rfl⟩ : ∃ (b : Fin 4) (h : Fin 16) (r : Fin 2048) (j : Fin 128), i = ix4 b h r j :=
    ⟨i 0, i 1, i 2, i 3, eq_ix4 i⟩
  rw [unslab_apply]
  show sumThenNormalise
      (fun k : Fin 2048 => ∑ d : Fin 128,
        (qArr m c (ix3 (⟨16 * b.val + h.val, by have := b.isLt; have := h.isLt; omega⟩ : Fin 64) r d) * scaleK)
          * kArr m c (ix3 (⟨16 * b.val + h.val, by have := b.isLt; have := h.isLt; omega⟩ : Fin 64) k d))
      (fun k : Fin 2048 => vArr m c (ix3 (⟨16 * b.val + h.val, by have := b.isLt; have := h.isLt; omega⟩ : Fin 64) k j))
    = sumThenNormalise (logitScaled scaleK (m ((c.tc : Thread nD τ).loc main_arg0)) (m ((c.tc : Thread nD τ).loc main_arg1)) b h r)
      (fun k : Fin 2048 => m ((c.tc : Thread nD τ).loc main_arg2) (ix4 b h k j))
  have hl : (fun k : Fin 2048 => ∑ d : Fin 128,
        (qArr m c (ix3 (⟨16 * b.val + h.val, by have := b.isLt; have := h.isLt; omega⟩ : Fin 64) r d) * scaleK)
          * kArr m c (ix3 (⟨16 * b.val + h.val, by have := b.isLt; have := h.isLt; omega⟩ : Fin 64) k d))
      = logitScaled scaleK (m ((c.tc : Thread nD τ).loc main_arg0)) (m ((c.tc : Thread nD τ).loc main_arg1)) b h r := by
    funext k
    unfold logitScaled
    refine Finset.sum_congr rfl fun d _ => ?_
    rw [qArr_eq, kArr_eq, slab_apply, slab_apply]
  have hv : (fun k : Fin 2048 => vArr m c (ix3 (⟨16 * b.val + h.val, by have := b.isLt; have := h.isLt; omega⟩ : Fin 64) k j))
      = fun k : Fin 2048 => m ((c.tc : Thread nD τ).loc main_arg2) (ix4 b h k j) := by
    funext k
    rw [vArr_eq, slab_apply]
  rw [hl, hv]

/-- The kernel's run, read: the result at attention of the arguments (the kernel's arrangement), the arguments kept. -/
theorem run : θ_run defs (onTc (τ := τ) (main (F := Ideal))) ⟨m, fun _ => 0, ρ⟩ (fun r => ∀ c : Dev nD,
      r.2.mem ((c.tc : Thread nD τ).loc main_v4)
        = attnKer scaleK (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.Reference.lean ====
import proofs.«401673_j60078002537020_3_alg».proof.Proof.Gen.ReferenceIdeal.Run
import proofs.«401673_j60078002537020_3_alg».proof.Proof.Gen.ReferenceIdeal.Read
import proofs.«401673_j60078002537020_3_alg».proof.Proof.Attention

/-
  The reference program's result array is the specification's `attnRef`.

  The reference computes, stage by stage: both inputs divided by the literal, their batched product over the head
  dimension (the LOGITS, one per batch, head, query row and key row), each row's maximum from `-∞`, the exponential
  of logit minus maximum (the WEIGHTS), each row's sum of weights from `0`, weight over sum, and the batched product
  of those quotients with the values over the key row. Each stage is read at an index whose coordinates are
  explicit, `(b, h, r, k)` or `(b, h, r)`, and identified with the specification's function of the same name; the
  result then is `softmaxThenSum` of the row of logits and the column of values, term by term.
-/

noncomputable section

namespace Cert.ReferenceIdeal.RefValue

open Cert.ReferenceIdeal Cert.ReferenceIdeal.Gen Cert.ReferenceIdeal.Read Cert.Attention
open Idealize.ShloMosaic Idealize.ShloMosaic.ValueIdx

/-- The word `0xFF800000`, the initial value of the row maximum, is `-∞`. -/
theorem negInf_eq_bot : Ideal.ofBits .f32 0xFF800000#32 = (⊥ : EReal) := by
  simp [Ideal.ofBits, Ideal.ieee]

/-- The logits stage at `(b, h, r, k)`: the sum over the head dimension of the two divided factors. -/
theorem logits_eq (x0 x1 : (⟨S4x16x2048x128, .f32⟩ : BufTy).Contents (Elt Ideal))
    (b : Fin 4) (h : Fin 16) (r k : Fin 2048) :
    val_main_v4 (F := Ideal) x0 x1 (ix4 b h r k) = logitDiv x0 x1 b h r k := by
  rw [val_main_v4_apply]
  unfold logitDiv
  refine Finset.sum_congr rfl fun d _ => ?_
  have el : lidx_main_v4 (ix4 b h r k) d = ix4 b h r d :=
    funext fun a => Fin.ext (by match a with | ⟨0, _⟩ => rfl | ⟨1, _⟩ => rfl | ⟨2, _⟩ => rfl | ⟨3, _⟩ => rfl)
  have er : ridx_main_v4 (ix4 b h r k) d = ix4 b h k d :=
    funext fun a => Fin.ext (by match a with | ⟨0, _⟩ => rfl | ⟨1, _⟩ => rfl | ⟨2, _⟩ => rfl | ⟨3, _⟩ => rfl)
  rw [el, er, val_main_v1_apply, val_main_v3_apply, val_main_v0_apply, val_main_v2_apply,
    val_main_cst_apply, val_main_cst_0_apply]
  simp only [Ideal.hostDivf_def, Ideal.ofBits_def]

/-- The reduced index `(b, h, r)` with the key row `k` put back on the last axis is `(b, h, r, k)`. -/
theorem lift_ix3 (hR : S4x16x2048x2048.Reduces [3] S4x16x2048) (b : Fin 4) (h : Fin 16) (r : Fin 2048)
    (k : Fin (S4x16x2048x2048.size 3)) :
    hR.lift (ix3 b h r) k = ix4 b h r (⟨k.val, k.isLt⟩ : Fin 2048) :=
  funext fun c => Fin.ext (by match c with | ⟨0, _⟩ => rfl | ⟨1, _⟩ => rfl | ⟨2, _⟩ => rfl | ⟨3, _⟩ => rfl)

/-- The row maximum stage at `(b, h, r)`: the maximum, from `-∞`, of that row of logits. -/
theorem rowMax_eq (x0 x1 : (⟨S4x16x2048x128, .f32⟩ : BufTy).Contents (Elt Ideal))
    (b : Fin 4) (h : Fin 16) (r : Fin 2048) :
    val_main_v7 (F := Ideal) x0 x1 (ix3 b h r) = rowMax (logitDiv x0 x1 b h r) := by
  have hR : S4x16x2048x2048.Reduces [3] S4x16x2048 := by decide
  rw [val_main_v7_apply, val_main_v6_apply, val_main_cst_2_apply]
  simp only [Ideal.maximumf_def, Ideal.ofBits_def]
  rw [negInf_eq_bot, max_bot_left]
  unfold val_main_v5
  refine (Host.reduce_eq_fold_single (FloatOps.maximumf (F := Ideal) (φ := .f32)) (val_main_v4 (F := Ideal) x0 x1)
    (val_main_cst_1 (F := Ideal)) reducesTo_S4x16x2048x2048_S4x16x2048_d3 hR h_S_ (ix3 b h r)).trans ?_
  rw [val_main_cst_1_apply, Ideal.ofBits_def, negInf_eq_bot]
  have hf : (val_main_v4 (F := Ideal) x0 x1 ∘ hR.lift (ix3 b h r)) = logitDiv x0 x1 b h r :=
    funext fun k => by
      show val_main_v4 (F := Ideal) x0 x1 (hR.lift (ix3 b h r) k) = _
      rw [lift_ix3, logits_eq]
      rfl
  rw [hf]
  rfl

/-- The weights stage at `(b, h, r, k)`: the exponential of the logit minus its row's maximum. -/
theorem weights_eq (x0 x1 : (⟨S4x16x2048x128, .f32⟩ : BufTy).Contents (Elt Ideal))
    (b : Fin 4) (h : Fin 16) (r k : Fin 2048) :
    val_main_v11 (F := Ideal) x0 x1 (ix4 b h r k) = expShift (logitDiv x0 x1 b h r) k := by
  have e : idx_main_v8 (idx_main_v9 (ix4 b h r k)) = ix3 b h r :=
    funext fun a => Fin.ext (by match a with | ⟨0, _⟩ => rfl | ⟨1, _⟩ => rfl | ⟨2, _⟩ => rfl)
  rw [val_main_v11_apply, val_main_v10_apply, val_main_v9_apply, val_main_v8_apply, e, rowMax_eq, logits_eq]
  simp only [Ideal.hostUnary_exp_def, Ideal.subf_def]
  rfl

/-- The sum stage at `(b, h, r)`: the sum of that row's weights (the initial value is the zero word). -/
theorem weightSum_eq (x0 x1 : (⟨S4x16x2048x128, .f32⟩ : BufTy).Contents (Elt Ideal))
    (b : Fin 4) (h : Fin 16) (r : Fin 2048) :
    val_main_v12 (F := Ideal) x0 x1 (ix3 b h r) = ∑ k : Fin 2048, expShift (logitDiv x0 x1 b h r) k := by
  rw [val_main_v12_apply, val_main_cst_3_apply]
  simp only [Ideal.ofBits_def, Ideal.ofBits_zero_f32, zero_add]
  refine Finset.sum_congr rfl fun k _ => ?_
  have e : idx_main_v12 (ix3 b h r) k = ix4 b h r k :=
    funext fun a => Fin.ext (by match a with | ⟨0, _⟩ => rfl | ⟨1, _⟩ => rfl | ⟨2, _⟩ => rfl | ⟨3, _⟩ => rfl)
  rw [e, weights_eq]

/-- The reference's result array is the specification's: softmax of each row of logits, then the weighted sum of the
    values. -/
theorem result_eq (x0 x1 x2 : (⟨S4x16x2048x128, .f32⟩ : BufTy).Contents (Elt Ideal)) :
    Cert.ReferenceIdeal.Read.val_main_v16 (F := Ideal) x0 x1 x2 = Cert.Attention.attnRef x0 x1 x2 := by
  funext i
  rw [val_main_v16_apply]
  unfold attnRef softmaxThenSum
  refine Finset.sum_congr rfl fun k _ => ?_
  have el : lidx_main_v16 i k = ix4 (cb i) (ch i) (cr i) k :=
    funext fun a => Fin.ext (by match a with | ⟨0, _⟩ => rfl | ⟨1, _⟩ => rfl | ⟨2, _⟩ => rfl | ⟨3, _⟩ => rfl)
  have er : ridx_main_v16 i k = ix4 (cb i) (ch i) k (cj i) :=
    funext fun a => Fin.ext (by match a with | ⟨0, _⟩ => rfl | ⟨1, _⟩ => rfl | ⟨2, _⟩ => rfl | ⟨3, _⟩ => rfl)
  have e : idx_main_v13 (idx_main_v14 (ix4 (cb i) (ch i) (cr i) k)) = ix3 (cb i) (ch i) (cr i) :=
    funext fun a => Fin.ext (by match a with | ⟨0, _⟩ => rfl | ⟨1, _⟩ => rfl | ⟨2, _⟩ => rfl)
  rw [el, er, val_main_v15_apply, val_main_v14_apply, val_main_v13_apply, e, weights_eq, weightSum_eq]
  simp only [Ideal.hostDivf_def]

end Cert.ReferenceIdeal.RefValue

end
-- ==== Proof.AttentionAlgebra.lean ====
/-
  The algebra of the two arrangements of scaled dot-product attention, over the shared specification only.

  Three facts make the kernel's arrangement equal to the reference's on finite (real) inputs:
  * the reference's divisor `D` is the real `14107901 / 2^22`, and the kernel's scale is exactly `1 / D^2`, so
    `(q · c) · k = (q / D) · (k / D)` term by term and the two rows of logits coincide;
  * a row of real logits has a real maximum `M`, so every weight `exp (s k - M)` is a positive real and the
    weights' sum `l` is a positive real, in particular not zero;
  * division by the nonzero real `l` is multiplication by `1 / l`, which distributes over the finite sum:
    `(∑ k, p k · v k) / l = ∑ k, (p k / l) · v k`.
-/
import proofs.«401673_j60078002537020_3_alg».proof.Proof.Attention
import Mathlib.Data.EReal.Basic
import Mathlib.Data.EReal.Operations
import Mathlib.Data.EReal.Inv
import Mathlib.Data.Finset.Fold
import Mathlib.Algebra.Order.BigOperators.Group.Finset
import Mathlib.Analysis.SpecialFunctions.Exp

noncomputable section

namespace Cert.Attention

open Idealize.ShloMosaic Idealize.ShloMosaic.ValueIdx

/-! ### The literal and the scale -/

/-- The reference's divisor: sign `+`, exponent field `128`, significand `2^23 + 5719293 = 14107901`, so the value
    is `14107901 · 2^(128 - 127 - 23) = 14107901 / 2^22`. -/
theorem rootLit_eq : rootLit = ((14107901 / 4194304 : ℝ) : EReal) := by
  simp [rootLit, Ideal.ofBits, Ideal.ieee, -EReal.coe_mul]
  norm_num

/-- Dividing a real by the literal multiplies it by the reciprocal `2^22 / 14107901`. -/
theorem div_rootLit (x : ℝ) :
    Ideal.div (x : EReal) rootLit = ((x * (4194304 / 14107901) : ℝ) : EReal) := by
  rw [rootLit_eq, Ideal.div_coe (by norm_num), ← EReal.coe_mul]
  congr 1
  norm_num

/-- The coercion of a finite sum of reals is the sum of the coercions. -/
theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- One term of the logits: scaling the query factor by `1 / D^2` is dividing both factors by `D`. -/
theorem term_eq (x y : ℝ) :
    ((x : EReal) * ((17592186044416 / 199032870625801 : ℝ) : EReal)) * (y : EReal)
      = Ideal.div (x : EReal) rootLit * Ideal.div (y : EReal) rootLit := by
  rw [div_rootLit, div_rootLit, ← EReal.coe_mul, ← EReal.coe_mul, ← EReal.coe_mul]
  congr 1
  ring

/-- The kernel's logits, at the scale `2^44 / 14107901^2`, are the reference's. -/
theorem logitScaled_eq (Q K : SQ.Idx → EReal) (hQ : ∀ i, ∃ x : ℝ, Q i = x) (hK : ∀ i, ∃ x : ℝ, K i = x)
    (b : Fin 4) (h : Fin 16) (r k : Fin 2048) :
    logitScaled ((17592186044416 / 199032870625801 : ℝ) : EReal) Q K b h r k = logitDiv Q K b h r k := by
  unfold logitScaled logitDiv
  refine Finset.sum_congr rfl fun d _ => ?_
  obtain ⟨x, hx⟩ := hQ (ix4 b h r d)
  obtain ⟨y, hy⟩ := hK (ix4 b h k d)
  rw [hx, hy]
  exact term_eq x y

/-- The reference's logits of real inputs are real. -/
theorem logitDiv_real (Q K : SQ.Idx → EReal) (hQ : ∀ i, ∃ x : ℝ, Q i = x) (hK : ∀ i, ∃ x : ℝ, K i = x)
    (b : Fin 4) (h : Fin 16) (r k : Fin 2048) : ∃ x : ℝ, logitDiv Q K b h r k = x := by
  choose q hq using hQ
  choose kk hk using hK
  refine ⟨∑ d : Fin 128,
    (q (ix4 b h r d) * (4194304 / 14107901)) * (kk (ix4 b h k d) * (4194304 / 14107901)), ?_⟩
  rw [coe_sum]
  unfold logitDiv
  refine Finset.sum_congr rfl fun d _ => ?_
  rw [hq, hk, div_rootLit, div_rootLit, ← EReal.coe_mul]

/-! ### A row of real logits -/

/-- The maximum of a row of reals is a real: it is at least the first entry and below `+∞`. -/
theorem rowMax_real (s' : Fin 2048 → ℝ) : ∃ M : ℝ, rowMax (fun k => (s' k : EReal)) = M := by
  have hbot : rowMax (fun k => (s' k : EReal)) ≠ ⊥ := by
    have hle : ((s' 0 : ℝ) : EReal) ≤ rowMax (fun k => (s' k : EReal)) :=
      (Finset.le_fold_max _).2 (Or.inr ⟨0, Finset.mem_univ _, le_refl _⟩)
    intro hb
    rw [hb] at hle
    exact EReal.coe_ne_bot _ (le_bot_iff.1 hle)
  have htop : rowMax (fun k => (s' k : EReal)) ≠ ⊤ := by
    have hlt : rowMax (fun k => (s' k : EReal)) < ⊤ :=
      (Finset.fold_max_lt _).2 ⟨bot_lt_top, fun k _ => EReal.coe_lt_top _⟩
    exact hlt.ne
  exact ⟨(rowMax (fun k => (s' k : EReal))).toReal, (EReal.coe_toReal htop hbot).symm⟩

/-- The weights' sum is positive: every weight is an exponential, and the row is not empty. -/
theorem weightSum_pos (s' : Fin 2048 → ℝ) (M : ℝ) : 0 < ∑ k : Fin 2048, Real.exp (s' k - M) :=
  Finset.sum_pos (fun k _ => Real.exp_pos _) ⟨0, Finset.mem_univ _⟩

/-- The weighted sum first and one division after equals softmax first and the weighted sum after. -/
theorem sumThenNormalise_eq (s v : Fin 2048 → EReal) (hs : ∀ k, ∃ x : ℝ, s k = x) (hv : ∀ k, ∃ x : ℝ, v k = x) :
    sumThenNormalise s v = softmaxThenSum s v := by
  choose s' hs' using hs
  choose v' hv' using hv
  obtain rfl : s = fun k => (s' k : EReal) := funext hs'
  obtain rfl : v = fun k => (v' k : EReal) := funext hv'
  obtain ⟨M, hM⟩ := rowMax_real s'
  have hp : ∀ k, expShift (fun k => (s' k : EReal)) k = ((Real.exp (s' k - M) : ℝ) : EReal) := by
    intro k
    show Ideal.exp ((s' k : EReal) - rowMax (fun k => (s' k : EReal))) = _
    rw [hM, ← EReal.coe_sub, Ideal.exp_coe]
  have hl : 0 < ∑ k : Fin 2048, Real.exp (s' k - M) := weightSum_pos s' M
  -- the weights' sum, the kernel's numerator and the reference's sum, each as the coercion of a real sum
  have hden : (∑ k : Fin 2048, expShift (fun k => (s' k : EReal)) k)
      = ((∑ k : Fin 2048, Real.exp (s' k - M) : ℝ) : EReal) := by
    rw [coe_sum]
    exact Finset.sum_congr rfl fun k _ => hp k
  have hnum : (∑ k : Fin 2048, expShift (fun k => (s' k : EReal)) k * (v' k : EReal))
      = ((∑ k : Fin 2048, Real.exp (s' k - M) * v' k : ℝ) : EReal) := by
    rw [coe_sum]
    exact Finset.sum_congr rfl fun k _ => by rw [hp k, ← EReal.coe_mul]
  have href : (∑ k : Fin 2048, Ideal.div (expShift (fun k => (s' k : EReal)) k)
        ((∑ k : Fin 2048, Real.exp (s' k - M) : ℝ) : EReal) * (v' k : EReal))
      = ((∑ k : Fin 2048, Real.exp (s' k - M) * (1 / ∑ k : Fin 2048, Real.exp (s' k - M)) * v' k : ℝ) : EReal) := by
    rw [coe_sum Finset.univ fun k => Real.exp (s' k - M) * (1 / ∑ k : Fin 2048, Real.exp (s' k - M)) * v' k]
    exact Finset.sum_congr rfl fun k _ => by
      rw [hp k, Ideal.div_coe hl.ne', ← EReal.coe_mul, ← EReal.coe_mul]
  show Ideal.div (∑ k : Fin 2048, expShift (fun k => (s' k : EReal)) k * (v' k : EReal))
      (∑ k : Fin 2048, expShift (fun k => (s' k : EReal)) k)
    = ∑ k : Fin 2048, Ideal.div (expShift (fun k => (s' k : EReal)) k)
        (∑ k' : Fin 2048, expShift (fun k => (s' k : EReal)) k') * (v' k : EReal)
  rw [hden, hnum, href, Ideal.div_coe hl.ne', ← EReal.coe_mul, EReal.coe_eq_coe_iff, Finset.sum_mul]
  exact Finset.sum_congr rfl fun k _ => by ring

/-! ### The whole arrays -/

/-- The kernel's arrangement at the scale `2^44 / 14107901^2` is the reference's, on real inputs. -/
theorem attnKer_eq (Q K V : SQ.Idx → EReal) (hQ : ∀ i, ∃ x : ℝ, Q i = x) (hK : ∀ i, ∃ x : ℝ, K i = x)
    (hV : ∀ i, ∃ x : ℝ, V i = x) :
    attnKer ((17592186044416 / 199032870625801 : ℝ) : EReal) Q K V = attnRef Q K V := by
  funext i
  unfold attnKer attnRef
  have hrow : logitScaled ((17592186044416 / 199032870625801 : ℝ) : EReal) Q K (cb i) (ch i) (cr i)
      = logitDiv Q K (cb i) (ch i) (cr i) :=
    funext fun k => logitScaled_eq Q K hQ hK (cb i) (ch i) (cr i) k
  rw [hrow]
  exact sumThenNormalise_eq _ _ (fun k => logitDiv_real Q K hQ hK (cb i) (ch i) (cr i) k) (fun k => hV _)

end Cert.Attention

end
-- ==== Proof.FiniteInputs.lean ====
/-
  From the precondition to "every input element is a real number".

  The precondition is the conjunction, over the three input arrays, of "every element `x` satisfies `|x| < +∞`".
  On the extended reals `|x| = max x (-x)`, which is `+∞` at both infinities, so an element that passes the
  comparison is neither `+∞` nor `-∞`: it is a real number. The conjunction over a whole array being true
  gives the comparison at each of its elements, and the conjunction of the three arrays' results being true
  gives each of the three.
-/
import proofs.«401673_j60078002537020_3_alg».proof.Pre_finite_inputs
import proofs.«401673_j60078002537020_3_alg».proof.Proof.Gen.Pre_finite_inputs
import Idealize.ShloMosaic.PureOps.Ideal
import Idealize.ShloMosaic.Lib.ReduceAll
import Idealize.ShloMosaic.Lib.ValueIdx

noncomputable section

namespace Cert.FiniteInputs

open Idealize.ShloMosaic Idealize.ShloMosaic.ValueIdx Cert.Pre_finite_inputs

/-- The shape of a scalar has exactly one index. -/
instance : Subsingleton S_.Idx := ⟨fun a b => funext fun d => d.elim0⟩

/-- An extended real whose absolute value `max x (-x)` lies strictly below `+∞` is a real number:
    `+∞` has absolute value `+∞`, and so has `-∞`. -/
theorem real_of_abs_lt_top (x : EReal) (h : Ideal.cmp .olt (max x (-x)) ⊤ = 1#1) : ∃ r : ℝ, x = r := by
  induction x using EReal.rec with
  | bot => simp [Ideal.cmp] at h
  | top => simp [Ideal.cmp] at h
  | coe r => exact ⟨r, rfl⟩

/-- The f32 word `0x7F800000` denotes `+∞`. -/
theorem ofBits_inf : Ideal.ofBits .f32 0x7F800000#32 = ⊤ := by simp [Ideal.ofBits, Ideal.ieee]

/-- One input array: if the conjunction over all elements of `|x| < +∞` is true, every element of `x` is real. -/
theorem real_of_all (x : FVec Ideal S4x16x2048x128 .f32)
    (hb : S_.BroadcastsInDim S4x16x2048x128 (![] : Fin 0 → Fin S4x16x2048x128.rank))
    (hr : S4x16x2048x128.ReducesTo [0, 1, 2, 3] S_) (hu : 0 < S_.numel) (init : IVec S_ 1) (j : S_.Idx)
    (h : Host.reduce IntOp.andi
        (cmpf .olt (Host.absf x) (broadcastInDim S4x16x2048x128 ![] hb (constant S_ .f32 0x7F800000#32))) init hr hu j = 1#1) :
    ∀ i, ∃ r : ℝ, x i = r := by
  intro i
  have e := Host.reduce_andi_all _ _ hr hu j h i
  apply real_of_abs_lt_top
  rw [← ofBits_inf]
  exact e

/-- Under the precondition, every element of each of the three input arrays is a real number. -/
theorem real_of_pre (x0 x1 x2 : FVec Ideal Cert.Pre_finite_inputs.S4x16x2048x128 .f32) (h : Cert.Pre_finite_inputs.fn (F := Ideal) x0 x1 x2 = fun _ => 1#1) : (∀ i, ∃ r : ℝ, x0 i = r) ∧ (∀ i, ∃ r : ℝ, x1 i = r) ∧ (∀ i, ∃ r : ℝ, x2 i = r) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨real_of_all x0 _ _ _ _ _ h0', real_of_all x1 _ _ _ _ _ h1, real_of_all x2 _ _ _ _ _ h2⟩

end Cert.FiniteInputs

end
-- ==== Proof.lean ====
/-
  Scaled dot-product attention, f32[4, 16, 2048, 128]: the Pallas kernel against its jnp reference, over the
  extended reals.

  The reference divides queries and keys by the f32 nearest to 128^(1/4), `D`, takes the softmax of the logits row by
  row and then the weighted sum of the values. The kernel scales the queries alone by one constant, named
  `1 / D²` (the closed form in the reference's own literal whose f32 rounding is the kernel's word), keeps the key and
  value panels of a (batch, head) pair from its first q-tile to its second, and divides the weighted sum of the values
  by the weights' sum once per output element. On finite inputs every intermediate is a real number, the row maximum
  is attained and the weights' sum is positive, so `(q · (1/D²)) · k = (q / D) · (k / D)` and
  `(∑ p · v) / l = ∑ (p / l) · v`: both programs compute one function, element by element.
-/
import proofs.«401673_j60078002537020_3_alg».proof.Defs
import proofs.«401673_j60078002537020_3_alg».proof.Proof.Gen.Kernel.Frame
import proofs.«401673_j60078002537020_3_alg».proof.Proof.Gen.KernelIdeal.Frame
import proofs.«401673_j60078002537020_3_alg».proof.Proof.Gen.ReferenceIdeal.Run
import proofs.«401673_j60078002537020_3_alg».proof.Proof.Gen.Pre_finite_inputs
import proofs.«401673_j60078002537020_3_alg».proof.Proof.KernelValue
import proofs.«401673_j60078002537020_3_alg».proof.Proof.Reference
import proofs.«401673_j60078002537020_3_alg».proof.Proof.AttentionAlgebra
import proofs.«401673_j60078002537020_3_alg».proof.Proof.FiniteInputs

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The one named constant: the table gives the kernel's scale the value `2^44 / 14107901²`. -/
theorem preserves : Cert.preserves_Kernel_KernelIdeal :=
  IdealRules.named_const.statement Cert.KernelIdeal.κ "inv_sqrt_d" .f32 0x3DB504F3#32
    ((17592186044416 / 199032870625801 : ℝ) : EReal) rfl

/-- So at the ideal instance the kernel's scale denotes that rational. -/
theorem scaleK_eq : Cert.KernelIdeal.Payload.scaleK = ((17592186044416 / 199032870625801 : ℝ) : EReal) :=
  IdealRules.named_const.ideal_named_scalar _ _ _ _ rfl

/-- Both programs end with attention of the arguments: the kernel in its arrangement, the reference in its own, equal
    on finite inputs. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hQ, hK, hV⟩ := Cert.FiniteInputs.real_of_pre _ _ _ (hpre c)
  rw [Cert.ReferenceIdeal.Read.val_main_v16_eq, Cert.ReferenceIdeal.RefValue.result_eq, (hagree c).1, (hagree c).2.1,
    (hagree c).2.2, scaleK_eq]
  exact (Cert.Attention.attnKer_eq _ _ _ hQ hK hV).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
